-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S100000x64 .f32) (main_arg2 : IVec S2x1000000 32) (main_arg3 : IVec S2x1000000 32) (main_arg4 : FVec F S192x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1000000 : Shape := ⟨2, ![2, 1000000]⟩
abbrev S192x64 : Shape := ⟨2, ![192, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S100000x1 : Shape := ⟨2, ![100000, 1]⟩
abbrev S10000x64 : Shape := ⟨2, ![10000, 64]⟩
abbrev S64x64 : Shape := ⟨2, ![64, 64]⟩
abbrev S1x64 : Shape := ⟨2, ![1, 64]⟩
abbrev S10000 : Shape := ⟨1, ![10000]⟩
abbrev S10000x1 : Shape := ⟨2, ![10000, 1]⟩

abbrev nBuf : Space → Nat
  | .hbm => 71
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1000000, .i32⟩
  | .hbm, ⟨3, _⟩ => ⟨S2x1000000, .i32⟩
  | .hbm, ⟨4, _⟩ => ⟨S192x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S100000, .i32⟩
  | .hbm, ⟨11, _⟩ => ⟨S1100000, .i32⟩
  | .hbm, ⟨12, _⟩ => ⟨S1100000, .i32⟩
  | .hbm, ⟨13, _⟩ => ⟨S_, .i32⟩
  | .hbm, ⟨14, _⟩ => ⟨S1100000, .i32⟩
  | .hbm, ⟨15, _⟩ => ⟨S1100000, .i1⟩
  | .hbm, ⟨16, _⟩ => ⟨S_, .i32⟩
  | .hbm, ⟨17, _⟩ => ⟨S1100000, .i32⟩
  | .hbm, ⟨18, _⟩ => ⟨S1100000, .i32⟩
  | .hbm, ⟨19, _⟩ => ⟨S1100000, .i32⟩
  | .hbm, ⟨20, _⟩ => ⟨S1100000x1, .i32⟩
  | .hbm, ⟨21, _⟩ => ⟨S1100000x64, .f32⟩
  | .hbm, ⟨22, _⟩ => ⟨S_, .f32⟩
  | .hbm, ⟨23, _⟩ => ⟨S100000x64, .f32⟩
  | .hbm, ⟨24, _⟩ => ⟨S1100000x1, .i32⟩
  | .hbm, ⟨25, _⟩ => ⟨S100000x64, .f32⟩
  | .hbm, ⟨26, _⟩ => ⟨S_, .f32⟩
  | .hbm, ⟨27, _⟩ => ⟨S1100000, .f32⟩
  | .hbm, ⟨28, _⟩ => ⟨S_, .f32⟩
  | .hbm, ⟨29, _⟩ => ⟨S100000, .f32⟩
  | .hbm, ⟨30, _⟩ => ⟨S1100000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S1x1000000, .i32⟩
  | .hbm, ⟨39, _⟩ => ⟨S1000000, .i32⟩
  | .hbm, ⟨40, _⟩ => ⟨S1x1000000, .i32⟩
  | .hbm, ⟨41, _⟩ => ⟨S1000000, .i32⟩
  | .hbm, ⟨42, _⟩ => ⟨S100000, .i32⟩
  | .hbm, ⟨43, _⟩ => ⟨S1100000, .i32⟩
  | .hbm, ⟨44, _⟩ => ⟨S1100000, .i32⟩
  | .hbm, ⟨45, _⟩ => ⟨S_, .i32⟩
  | .hbm, ⟨46, _⟩ => ⟨S1100000, .i32⟩
  | .hbm, ⟨47, _⟩ => ⟨S1100000, .i1⟩
  | .hbm, ⟨48, _⟩ => ⟨S_, .i32⟩
  | .hbm, ⟨49, _⟩ => ⟨S1100000, .i32⟩
  | .hbm, ⟨50, _⟩ => ⟨S1100000, .i32⟩
  | .hbm, ⟨51, _⟩ => ⟨S1100000, .i32⟩
  | .hbm, ⟨52, _⟩ => ⟨S1100000x1, .i32⟩
  | .hbm, ⟨53, _⟩ => ⟨S1100000x64, .f32⟩
  | .hbm, ⟨54, _⟩ => ⟨S_, .f32⟩
  | .hbm, ⟨55, _⟩ => ⟨S100000x64, .f32⟩
  | .hbm, ⟨56, _⟩ => ⟨S1100000x1, .i32⟩
  | .hbm, ⟨57, _⟩ => ⟨S100000x64, .f32⟩
  | .hbm, ⟨58, _⟩ => ⟨S_, .f32⟩
  | .hbm, ⟨59, _⟩ => ⟨S1100000, .f32⟩
  | .hbm, ⟨60, _⟩ => ⟨S_, .f32⟩
  | .hbm, ⟨61, _⟩ => ⟨S100000, .f32⟩
  | .hbm, ⟨62, _⟩ => ⟨S1100000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S192x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S1100000_S1100000x1_0 : S1100000.BroadcastsInDim S1100000x1 (![0] : Fin 1 → Fin S1100000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S192x64_S192x64_0_0 : ∀ a, (![0, 0] : Fin 2 → Nat) a + S192x64.size a ≤ S192x64.size a
  h_S192x64 : 0 < S192x64.numel
  slices_S192x64_o0_0_S64x64 : S192x64.Slices ![0, 0] S64x64
  bitsLt_bf16_f32 : FTy.bits .bf16 < FTy.bits .f32
  slices_S192x64_o64_0_S64x64 : S192x64.Slices ![64, 0] S64x64
  slices_S192x64_o128_0_S64x64 : S192x64.Slices ![128, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S100000_S1100000x1_S1100000_n_0_0_1_wf : ScatterDims.WF S100000 S1100000x1 S1100000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x64.size a ≤ S192x64.size a
  hwx0_3 : ∀ i : grid0.Coords, EltTy.bits .f32 = 32 ∨ (Rect.block (s := S192x64) S192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)

variable [Facts₀]

def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v25) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S192x64 : Shape := ⟨2, ![192, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S100000x1 : Shape := ⟨2, ![100000, 1]⟩
abbrev S100000x192 : Shape := ⟨2, ![100000, 192]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1000000, .i32⟩
  | .hbm, ⟨3, _⟩ => ⟨S2x1000000, .i32⟩
  | .hbm, ⟨4, _⟩ => ⟨S192x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S100000, .i32⟩
  | .hbm, ⟨11, _⟩ => ⟨S1100000, .i32⟩
  | .hbm, ⟨12, _⟩ => ⟨S1100000, .i32⟩
  | .hbm, ⟨13, _⟩ => ⟨S_, .i32⟩
  | .hbm, ⟨14, _⟩ => ⟨S1100000, .i32⟩
  | .hbm, ⟨15, _⟩ => ⟨S1100000, .i1⟩
  | .hbm, ⟨16, _⟩ => ⟨S_, .i32⟩
  | .hbm, ⟨17, _⟩ => ⟨S1100000, .i32⟩
  | .hbm, ⟨18, _⟩ => ⟨S1100000, .i32⟩
  | .hbm, ⟨19, _⟩ => ⟨S1100000, .i32⟩
  | .hbm, ⟨20, _⟩ => ⟨S1100000x1, .i32⟩
  | .hbm, ⟨21, _⟩ => ⟨S1100000x64, .f32⟩
  | .hbm, ⟨22, _⟩ => ⟨S_, .f32⟩
  | .hbm, ⟨23, _⟩ => ⟨S100000x64, .f32⟩
  | .hbm, ⟨24, _⟩ => ⟨S1100000x1, .i32⟩
  | .hbm, ⟨25, _⟩ => ⟨S100000x64, .f32⟩
  | .hbm, ⟨26, _⟩ => ⟨S_, .f32⟩
  | .hbm, ⟨27, _⟩ => ⟨S1100000, .f32⟩
  | .hbm, ⟨28, _⟩ => ⟨S_, .f32⟩
  | .hbm, ⟨29, _⟩ => ⟨S100000, .f32⟩
  | .hbm, ⟨30, _⟩ => ⟨S1100000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S1x1000000, .i32⟩
  | .hbm, ⟨39, _⟩ => ⟨S1000000, .i32⟩
  | .hbm, ⟨40, _⟩ => ⟨S1x1000000, .i32⟩
  | .hbm, ⟨41, _⟩ => ⟨S1000000, .i32⟩
  | .hbm, ⟨42, _⟩ => ⟨S100000, .i32⟩
  | .hbm, ⟨43, _⟩ => ⟨S1100000, .i32⟩
  | .hbm, ⟨44, _⟩ => ⟨S1100000, .i32⟩
  | .hbm, ⟨45, _⟩ => ⟨S_, .i32⟩
  | .hbm, ⟨46, _⟩ => ⟨S1100000, .i32⟩
  | .hbm, ⟨47, _⟩ => ⟨S1100000, .i1⟩
  | .hbm, ⟨48, _⟩ => ⟨S_, .i32⟩
  | .hbm, ⟨49, _⟩ => ⟨S1100000, .i32⟩
  | .hbm, ⟨50, _⟩ => ⟨S1100000, .i32⟩
  | .hbm, ⟨51, _⟩ => ⟨S1100000, .i32⟩
  | .hbm, ⟨52, _⟩ => ⟨S1100000x1, .i32⟩
  | .hbm, ⟨53, _⟩ => ⟨S1100000x64, .f32⟩
  | .hbm, ⟨54, _⟩ => ⟨S_, .f32⟩
  | .hbm, ⟨55, _⟩ => ⟨S100000x64, .f32⟩
  | .hbm, ⟨56, _⟩ => ⟨S1100000x1, .i32⟩
  | .hbm, ⟨57, _⟩ => ⟨S100000x64, .f32⟩
  | .hbm, ⟨58, _⟩ => ⟨S_, .f32⟩
  | .hbm, ⟨59, _⟩ => ⟨S1100000, .f32⟩
  | .hbm, ⟨60, _⟩ => ⟨S_, .f32⟩
  | .hbm, ⟨61, _⟩ => ⟨S100000, .f32⟩
  | .hbm, ⟨62, _⟩ => ⟨S1100000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S100000x192, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x1, .f32⟩
  | .hbm, ⟨80, _⟩ => ⟨S_, .f32⟩
  | .hbm, ⟨81, _⟩ => ⟨S100000x1, .f32⟩
  | .hbm, ⟨82, _⟩ => ⟨S100000x1, .f32⟩
  | .hbm, ⟨83, _⟩ => ⟨S100000x64, .f32⟩
  | .hbm, ⟨84, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S1100000_S1100000x1_0 : S1100000.BroadcastsInDim S1100000x1 (![0] : Fin 1 → Fin S1100000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S100000_S1100000x1_S1100000_n_0_0_1_wf : ScatterDims.WF S100000 S1100000x1 S1100000 [] [0] [0] 1
  dot_S100000x192_S192x64_S100000x64_1_0_0_1_n_n_wf : DotDims.WF S100000x192 S192x64 S100000x64 [1] [0] [0] [1] [] []

variable [Facts₀]

def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.Spec.lean ====
/-
  The mathematics both programs compute, stated once over plain arrays of extended reals.

  A node's feature row is built from three 64-wide rows: its mean over positive in-edges `a`, its mean over negative
  in-edges `b`, and its own features `x`.  The linear layer multiplies the 192-wide concatenation (a, b, x) by a
  192 x 64 weight matrix and adds a bias; the result row is then divided by the larger of its Euclidean norm and a
  small constant.  Because the concatenation only lays three rows side by side, the product with the weight matrix is
  the sum of three 64-term products, one against each band of 64 weight rows: a sum over 192 indices splits into the
  sums over its three bands (`sum_bands`), which needs only that addition is commutative and associative, so it holds
  on the extended reals without any finiteness assumption.
-/
import Idealize.ShloMosaic.PureOps.Ideal.Laws
import Idealize.ShloMosaic.Lib.ValueIdx

noncomputable section

open scoped BigOperators

namespace Cert.SignedSage

open Idealize.ShloMosaic Idealize.ShloMosaic.ValueIdx

/-- Row `k` of the first band of the weight matrix (rows 0 to 63: the positive-edge mean's weights). -/
def band0 (k : Fin 64) : Fin 192 := ⟨k.val, by have := k.isLt; omega⟩
/-- Row `k` of the second band (rows 64 to 127: the negative-edge mean's weights). -/
def band1 (k : Fin 64) : Fin 192 := ⟨64 + k.val, by have := k.isLt; omega⟩
/-- Row `k` of the third band (rows 128 to 191: the node's own features' weights). -/
def band2 (k : Fin 64) : Fin 192 := ⟨128 + k.val, by have := k.isLt; omega⟩

/-- A sum over the 192 weight rows is the sum over the three bands, grouped (first + second) + third. -/
theorem sum_bands (f : Fin 192 → EReal) :
    ∑ k : Fin 192, f k = ((∑ k : Fin 64, f (band0 k)) + ∑ k : Fin 64, f (band1 k)) + ∑ k : Fin 64, f (band2 k) := by
  have h1 : ∑ k : Fin 192, f k = (∑ i : Fin 128, f (Fin.castAdd 64 i)) + ∑ i : Fin 64, f (Fin.natAdd 128 i) :=
    Fin.sum_univ_add (M := EReal) (a := 128) (b := 64) f
  have h2 : (∑ i : Fin 128, f (Fin.castAdd 64 i))
      = (∑ i : Fin 64, f (Fin.castAdd 64 (Fin.castAdd 64 i))) + ∑ i : Fin 64, f (Fin.castAdd 64 (Fin.natAdd 64 i)) :=
    Fin.sum_univ_add (M := EReal) (a := 64) (b := 64) fun i => f (Fin.castAdd 64 i)
  rw [h1, h2]
  rfl

/-- One entry of the linear layer: the three 64-term products against the three bands of the weight matrix, plus the bias. -/
def linEntry (a b x : Fin 64 → EReal) (w : (⟨2, ![192, 64]⟩ : Shape).Idx → EReal)
    (bias : (⟨1, ![64]⟩ : Shape).Idx → EReal) (c : Fin 64) : EReal :=
  (((∑ k : Fin 64, a k * w (ix2 (band0 k) c)) + ∑ k : Fin 64, b k * w (ix2 (band1 k) c))
    + ∑ k : Fin 64, x k * w (ix2 (band2 k) c)) + bias (ix1 c)

/-- The floor under the norm: the single-precision word both programs write for 1e-12. -/
def normFloor : EReal := Ideal.ofBits .f32 0x2B8CBCCC#32

/-- One entry of the normalised row: the linear layer's entry over the larger of the row's Euclidean norm and the floor. -/
def normEntry (a b x : Fin 64 → EReal) (w : (⟨2, ![192, 64]⟩ : Shape).Idx → EReal)
    (bias : (⟨1, ![64]⟩ : Shape).Idx → EReal) (c : Fin 64) : EReal :=
  Ideal.div (linEntry a b x w bias c)
    (max (Ideal.sqrt (∑ c' : Fin 64, linEntry a b x w bias c' * linEntry a b x w bias c')) normFloor)

/-- The whole result: row `r` is the normalised row built from rows `r` of the two neighbourhood means and of the features. -/
def layer {n : ℕ} (o1 o2 x1 : (⟨2, ![n, 64]⟩ : Shape).Idx → EReal) (w : (⟨2, ![192, 64]⟩ : Shape).Idx → EReal)
    (bias : (⟨1, ![64]⟩ : Shape).Idx → EReal) : (⟨2, ![n, 64]⟩ : Shape).Idx → EReal :=
  fun i => normEntry (fun k => o1 (ix2 (i 0) k)) (fun k => o2 (ix2 (i 0) k)) (fun k => x1 (ix2 (i 0) k)) w bias (i 1)

theorem layer_apply {n : ℕ} (o1 o2 x1 : (⟨2, ![n, 64]⟩ : Shape).Idx → EReal) (w : (⟨2, ![192, 64]⟩ : Shape).Idx → EReal)
    (bias : (⟨1, ![64]⟩ : Shape).Idx → EReal) (r : Fin n) (c : Fin 64) :
    layer o1 o2 x1 w bias (ix2 r c)
      = normEntry (fun k => o1 (ix2 r k)) (fun k => o2 (ix2 r k)) (fun k => x1 (ix2 r k)) w bias c := rfl

end Cert.SignedSage

end
-- ==== Proof.RowLayout.lean ====
/-
  The layout reading of the concatenated feature row.

  Three n x 64 arrays laid side by side form an n x 192 array whose column 64 j + k (j = 0, 1, 2; k < 64) is column k of
  the j-th array: read at (r, band_j k) the concatenation is the j-th array at (r, k).
-/
import Idealize.ShloMosaic.Lib.Pipeline.Value
import Idealize.ShloMosaic.Lib.ValueLayout
import proofs.«178019_j24352464568464_1_alg».proof.Proof.Spec

namespace Cert.SignedSage

open Idealize.ShloMosaic Idealize.ShloMosaic.ValueIdx

variable {α : Type}

section Concat

variable {n : ℕ} (A B C : (⟨2, ![n, 64]⟩ : Shape).Idx → α)
  (h : Shape.Concatenates
    (([⟨⟨2, ![n, 64]⟩, A⟩, ⟨⟨2, ![n, 64]⟩, B⟩, ⟨⟨2, ![n, 64]⟩, C⟩] : List ((s : Shape) × (s.Idx → α))).map (·.1))
    ⟨2, ![n, 192]⟩ 1)

/-- Columns 0 to 63 of the concatenation are the first array's. -/
theorem concat3_band0 (r : Fin n) (k : Fin 64) :
    concatenate ⟨2, ![n, 192]⟩ 1 [⟨⟨2, ![n, 64]⟩, A⟩, ⟨⟨2, ![n, 64]⟩, B⟩, ⟨⟨2, ![n, 64]⟩, C⟩] h (ix2 r (band0 k)) = A (ix2 r k) :=
  concatenate_apply_piece 1 _ h (ix2 r (band0 k)) 0 (by show (0 : ℕ) < 3; omega) ⟨2, ![n, 64]⟩ A rfl rfl 0 rfl (ix2 r k)
    (fun b hb => by
      match b with
      | ⟨0, _⟩ => rfl
      | ⟨1, _⟩ => exact absurd rfl hb)
    (Nat.zero_add _)

/-- Columns 64 to 127 are the second array's. -/
theorem concat3_band1 (r : Fin n) (k : Fin 64) :
    concatenate ⟨2, ![n, 192]⟩ 1 [⟨⟨2, ![n, 64]⟩, A⟩, ⟨⟨2, ![n, 64]⟩, B⟩, ⟨⟨2, ![n, 64]⟩, C⟩] h (ix2 r (band1 k)) = B (ix2 r k) :=
  concatenate_apply_piece 1 _ h (ix2 r (band1 k)) 1 (by show (1 : ℕ) < 3; omega) ⟨2, ![n, 64]⟩ B rfl rfl 64 rfl (ix2 r k)
    (fun b hb => by
      match b with
      | ⟨0, _⟩ => rfl
      | ⟨1, _⟩ => exact absurd rfl hb)
    rfl

/-- Columns 128 to 191 are the third array's. -/
theorem concat3_band2 (r : Fin n) (k : Fin 64) :
    concatenate ⟨2, ![n, 192]⟩ 1 [⟨⟨2, ![n, 64]⟩, A⟩, ⟨⟨2, ![n, 64]⟩, B⟩, ⟨⟨2, ![n, 64]⟩, C⟩] h (ix2 r (band2 k)) = C (ix2 r k) :=
  concatenate_apply_piece 1 _ h (ix2 r (band2 k)) 2 (by show (2 : ℕ) < 3; omega) ⟨2, ![n, 64]⟩ C rfl rfl 128 rfl (ix2 r k)
    (fun b hb => by
      match b with
      | ⟨0, _⟩ => rfl
      | ⟨1, _⟩ => exact absurd rfl hb)
    rfl

end Concat

end Cert.SignedSage
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.Payload.lean ====
/-
  What the kernel body computes on one block of 10000 rows, read at an entry.

  The body forms the linear layer's block as (o1 W0 + o2 W1) + x1 W2 + bias, where W0, W1, W2 are the three 64-row bands
  cut from the 192-row weight block and each product runs through the matrix unit into a zero accumulator; the changes
  of float format around the products are the identity on exact values.  It then sums the squares along each row, takes
  the square root, bounds it below by the floor, and divides every entry of the row by the result.  At entry (p, c) this
  is `normEntry` of rows p of the three input blocks.
-/
import proofs.«178019_j24352464568464_1_alg».proof.Proof.Gen.KernelIdeal.Skeleton
import proofs.«178019_j24352464568464_1_alg».proof.Proof.Spec
import proofs.«178019_j24352464568464_1_alg».proof.Proof.RowLayout
import proofs.«178019_j24352464568464_1_alg».proof.Proof.LibPlainDot
import proofs.«178019_j24352464568464_1_alg».proof.Proof.LibColumnBroadcast
import proofs.«178019_j24352464568464_1_alg».proof.Proof.LibColumnCast
import Idealize.ShloMosaic.Lib.ValueLayout
import Idealize.ShloMosaic.Lib.Pipeline.Value
import Idealize.ShloMosaic.PureOps.Ideal.Laws

noncomputable section

open scoped BigOperators

namespace Cert.KernelIdeal.Bridge

open Cert.KernelIdeal Cert.KernelIdeal.Gen Idealize.ShloMosaic Idealize.ShloMosaic.ValueIdx Cert.SignedSage

/-- The linear layer's block, as the body writes it: three products into zero accumulators, added left to right, plus
    the bias row broadcast down the block. -/
def linBlock (w : FVec Ideal S192x64 .f32) (o1 o2 x1 : FVec Ideal S10000x64 .f32) (b : FVec Ideal S64 .f32) :
    FVec Ideal S10000x64 .f32 :=
  addf (addf (addf
      (matmul dot_S10000x64_S64x64_S10000x64_1_0_0_1_n_n none
        (truncf .bf16 (shapeCast S10000x64 o1 shapeCasts_S10000x64_S10000x64) bitsLt_bf16_f32)
        (truncf .bf16 (extractStridedSlice S64x64 ![0, 0] w slices_S192x64_o0_0_S64x64) bitsLt_bf16_f32)
        (constant S10000x64 .f32 0x00000000#32))
      (matmul dot_S10000x64_S64x64_S10000x64_1_0_0_1_n_n none
        (truncf .bf16 (shapeCast S10000x64 o2 shapeCasts_S10000x64_S10000x64) bitsLt_bf16_f32)
        (truncf .bf16 (extractStridedSlice S64x64 ![64, 0] w slices_S192x64_o64_0_S64x64) bitsLt_bf16_f32)
        (constant S10000x64 .f32 0x00000000#32)))
      (matmul dot_S10000x64_S64x64_S10000x64_1_0_0_1_n_n none
        (truncf .bf16 x1 bitsLt_bf16_f32)
        (truncf .bf16 (extractStridedSlice S64x64 ![128, 0] w slices_S192x64_o128_0_S64x64) bitsLt_bf16_f32)
        (constant S10000x64 .f32 0x00000000#32)))
    (broadcastTo S10000x64 (shapeCast S1x64 b shapeCasts_S64_S1x64) broadcasts_S1x64_S10000x64)

/-- The body's stored value is the linear layer's block over the column of bounded row norms, broadcast along the rows. -/
theorem pay_eq (w : FVec Ideal S192x64 .f32) (o1 o2 x1 : FVec Ideal S10000x64 .f32) (b : FVec Ideal S64 .f32) :
    k0_pay1 (F := Ideal) w o1 o2 x1 b
      = divf (linBlock w o1 o2 x1 b)
          (broadcastTo S10000x64
            (maximumf
              (sqrt (shapeCast S10000x1
                (multiReduction .add [1] S10000 (mulf (linBlock w o1 o2 x1 b) (linBlock w o1 o2 x1 b)) 0x00000000#32
                  reduces_S10000x64_S10000 (.inl rfl) rfl)
                shapeCasts_S10000_S10000x1))
              (broadcast S10000x1 (Scalar.ofBits .f32 0x2B8CBCCC#32)))
            broadcasts_S10000x1_S10000x64) := rfl

/-- A product of a 10000 x 64 block with a band of the weight block cut from row `off`, through the matrix unit into
    the zero accumulator, read at (p, c): the 64-term sum against that band's rows. -/
theorem band_product (l : FVec Ideal S10000x64 .f32) (w : FVec Ideal S192x64 .f32) (off : ℕ)
    (hs : S192x64.Slices ![off, 0] S64x64) (band : Fin 64 → Fin 192) (hband : ∀ k, (band k).val = off + k.val)
    (p : Fin 10000) (c : Fin 64) :
    matmul dot_S10000x64_S64x64_S10000x64_1_0_0_1_n_n none
        (truncf .bf16 l bitsLt_bf16_f32)
        (truncf .bf16 (extractStridedSlice S64x64 ![off, 0] w hs) bitsLt_bf16_f32)
        (constant S10000x64 .f32 0x00000000#32) (ix2 p c)
      = ∑ k : Fin 64, l (ix2 p k) * w (ix2 (band k) c) := by
  refine (plain_matmul_zero_apply (M := 10000) (K := 64) (N := 64) none
    (truncf .bf16 l bitsLt_bf16_f32) (truncf .bf16 (extractStridedSlice S64x64 ![off, 0] w hs) bitsLt_bf16_f32) (ix2 p c)).trans ?_
  refine Finset.sum_congr rfl fun k _ => ?_
  show l (ix2 p k) * extractStridedSlice S64x64 ![off, 0] w hs (ix2 k c) = _
  exact congrArg (l (ix2 p k) * ·) (slice2_axis0_apply off w hs k c (band k) (hband k))

/-- The bias row broadcast down the block reads, at (p, c), the bias at c. -/
theorem bias_apply (b : FVec Ideal S64 .f32) (p : Fin 10000) (c : Fin 64) :
    broadcastTo S10000x64 (shapeCast S1x64 b shapeCasts_S64_S1x64) broadcasts_S1x64_S10000x64 (ix2 p c) = b (ix1 c) :=
  (broadcastTo_1b_ab_apply (shapeCast S1x64 b shapeCasts_S64_S1x64) broadcasts_S1x64_S10000x64 p c).trans
    (shapeCast_a_1a_apply b shapeCasts_S64_S1x64 0 c)

/-- The linear layer's block at (p, c) is the specification's entry built from rows p of the input blocks. -/
theorem linBlock_apply (w : FVec Ideal S192x64 .f32) (o1 o2 x1 : FVec Ideal S10000x64 .f32) (b : FVec Ideal S64 .f32)
    (p : Fin 10000) (c : Fin 64) :
    linBlock w o1 o2 x1 b (ix2 p c)
      = linEntry (fun k => o1 (ix2 p k)) (fun k => o2 (ix2 p k)) (fun k => x1 (ix2 p k)) w b c := by
  unfold linBlock linEntry
  rw [addf_apply, addf_apply, addf_apply, bias_apply,
    shapeCast_self o1 shapeCasts_S10000x64_S10000x64, shapeCast_self o2 shapeCasts_S10000x64_S10000x64,
    band_product o1 w 0 slices_S192x64_o0_0_S64x64 band0 (fun k => (Nat.zero_add _).symm) p c,
    band_product o2 w 64 slices_S192x64_o64_0_S64x64 band1 (fun _ => rfl) p c,
    band_product x1 w 128 slices_S192x64_o128_0_S64x64 band2 (fun _ => rfl) p c]

/-- The sum of squares along row p of a block, as the lane reduction computes it. -/
theorem row_sq_sum (v : FVec Ideal S10000x64 .f32) (hacc : (0x00000000#32 : BitVec 32) = 0x00000000#32) (p : Fin 10000) :
    multiReduction .add [1] S10000 (mulf v v) 0x00000000#32 reduces_S10000x64_S10000 (.inl rfl) hacc (ix1 p)
      = ∑ k : Fin 64, v (ix2 p k) * v (ix2 p k) := by
  refine (Ideal.multiReduction_add_single (mulf v v) 0x00000000#32 reduces_S10000x64_S10000 (.inl rfl) hacc (ix1 p)).trans ?_
  refine Finset.sum_congr rfl fun k _ => ?_
  have e : reduces_S10000x64_S10000.lift (ix1 p) k = ix2 p k :=
    funext fun a => Fin.ext (by match a with | ⟨0, _⟩ => rfl | ⟨1, _⟩ => rfl)
  rw [e]
  rfl

/-- THE BODY'S VALUE AT AN ENTRY: the normalised row's entry c built from rows p of the three input blocks. -/
theorem pay_apply (w : FVec Ideal S192x64 .f32) (o1 o2 x1 : FVec Ideal S10000x64 .f32) (b : FVec Ideal S64 .f32)
    (p : Fin 10000) (c : Fin 64) :
    k0_pay1 (F := Ideal) w o1 o2 x1 b (ix2 p c)
      = normEntry (fun k => o1 (ix2 p k)) (fun k => o2 (ix2 p k)) (fun k => x1 (ix2 p k)) w b c := by
  rw [pay_eq, divf_apply, broadcastTo_a1_ab_apply _ broadcasts_S10000x1_S10000x64 p c, maximumf_apply]
  show Ideal.div _ (max (Ideal.sqrt (shapeCast S10000x1 _ shapeCasts_S10000_S10000x1 (ix2 p (0 : Fin 1)))) _) = _
  rw [shapeCast_a_a1_apply _ shapeCasts_S10000_S10000x1 p 0, row_sq_sum _ rfl p, linBlock_apply]
  unfold normEntry
  simp only [linBlock_apply]
  rfl

end Cert.KernelIdeal.Bridge

end
-- ==== Proof.KernelValue.lean ====
/-
  From blocks to the array.  Grid point t handles rows 10000 t to 10000 t + 9999: each of the three row-tiled inputs is
  staged as that block of rows, the weight matrix and the bias are staged whole, and the block the body writes is laid
  back over the same rows of the result.  A row of the normalised layer depends only on the same row of the inputs, so
  what point t writes back is exactly block t of the whole-array function `layer`; the ten blocks cover every row, so the
  result array after the run is `layer` of the arrays the region found.
-/
import proofs.«178019_j24352464568464_1_alg».proof.Proof.Gen.KernelIdeal.Value
import proofs.«178019_j24352464568464_1_alg».proof.Proof.Payload

set_option maxRecDepth 16384

noncomputable section

open scoped BigOperators

namespace Cert.KernelIdeal.Bridge

open Cert.KernelIdeal Cert.KernelIdeal.Gen Cert.KernelIdeal.Value Idealize.ShloMosaic Idealize.ShloMosaic.TcCoe Idealize.SL.Sem
open Idealize.ShloMosaic.ValueIdx Cert.SignedSage
open Idealize.ShloMosaic.Pipeline (Dat)

variable (m : (ℓ : Loc nD τ sig) → Buf (Elt Ideal) ℓ) (ρ : Dev nD → PrngReg)

theorem zero_offsets2 : (![0, 0] : Fin 2 → Nat) = fun _ => 0 := funext fun a => by fin_cases a <;> rfl
theorem zero_offsets1 : (![0] : Fin 1 → Nat) = fun _ => 0 := funext fun a => by fin_cases a <;> rfl

/-- An entry of the body's block is the same entry of `layer` of whole arrays, when the three row-tiled input blocks are
    rows T * 10000 onward of their arrays and the weight and bias blocks are their whole arrays. -/
theorem block_entry (w W : FVec Ideal S192x64 .f32) (b B : FVec Ideal S64 .f32)
    (o1 o2 x1 : FVec Ideal S10000x64 .f32) (O1 O2 X1 : FVec Ideal S100000x64 .f32) (T : ℕ)
    (hO1 : ∀ (y : S10000x64.Idx) (z : S100000x64.Idx), (z 0).val = T * 10000 + (y 0).val → (z 1).val = (y 1).val → o1 y = O1 z)
    (hO2 : ∀ (y : S10000x64.Idx) (z : S100000x64.Idx), (z 0).val = T * 10000 + (y 0).val → (z 1).val = (y 1).val → o2 y = O2 z)
    (hX1 : ∀ (y : S10000x64.Idx) (z : S100000x64.Idx), (z 0).val = T * 10000 + (y 0).val → (z 1).val = (y 1).val → x1 y = X1 z)
    (hW : ∀ y : S192x64.Idx, w y = W y) (hB : ∀ y : S64.Idx, b y = B y)
    (j : S10000x64.Idx) (i : S100000x64.Idx) (hi0 : (i 0).val = T * 10000 + (j 0).val) (hi1 : (i 1).val = (j 1).val) :
    k0_pay1 (F := Ideal) w o1 o2 x1 b j = layer O1 O2 X1 W B i := by
  obtain ⟨p, q, rfl⟩ : ∃ (p : Fin 10000) (q : Fin 64), j = ix2 p q := ⟨j 0, j 1, eq_ix2 j⟩
  obtain ⟨r, c, rfl⟩ : ∃ (r : Fin 100000) (c : Fin 64), i = ix2 r c := ⟨i 0, i 1, eq_ix2 i⟩
  obtain rfl : c = q := Fin.ext hi1
  obtain rfl : w = W := funext hW
  obtain rfl : b = B := funext hB
  have e1 : (fun k : Fin 64 => o1 (ix2 p k)) = fun k => O1 (ix2 r k) := funext fun k => hO1 (ix2 p k) (ix2 r k) hi0 rfl
  have e2 : (fun k : Fin 64 => o2 (ix2 p k)) = fun k => O2 (ix2 r k) := funext fun k => hO2 (ix2 p k) (ix2 r k) hi0 rfl
  have e3 : (fun k : Fin 64 => x1 (ix2 p k)) = fun k => X1 (ix2 r k) := funext fun k => hX1 (ix2 p k) (ix2 r k) hi0 rfl
  rw [pay_apply, layer_apply, e1, e2, e3]

/-- The printed index maps, decided over the ten grid points: the three row-tiled inputs and the output are at row
    block t, column block 0; the weight matrix and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The result as one function of the arrays the region finds. -/
abbrev whole (c : Dev nD) : S100000x64.Idx → Elt Ideal .f32 :=
  layer (V m c main_v25 : S100000x64.Idx → Elt Ideal .f32) (V m c main_v51 : S100000x64.Idx → Elt Ideal .f32)
    (V m c main_arg0 : S100000x64.Idx → Elt Ideal .f32) (V m c main_arg4 : S192x64.Idx → Elt Ideal .f32)
    (V m c main_arg5 : S64.Idx → Elt Ideal .f32)

/-- A block's contents, written back at point t, are block t of an array G as soon as they agree entry by entry with G
    read through the block's embedding (rows 10000 t onward). -/
theorem writeback_eq (t : Fin cfg0.N) (X : Vec Ideal S10000x64 .f32) (G : S100000x64.Idx → Elt Ideal .f32)
    (h : ∀ j : S10000x64.Idx, X j = G (((cfg0.win 5).blk t).view.emb j)) :
    (cfg0.win 5).cut (grid0.coords t) X = ((cfg0.win 5).blk t).view.read (Elt Ideal) G := by
  funext j
  exact h j

/-- Window 0's block at point t, read off any array of its shape: rows 10000 t onward, the same columns. -/
theorem win0_rows (t : Fin cfg0.N) (A : S100000x64.Idx → Elt Ideal .f32) (y : S10000x64.Idx) (z : S100000x64.Idx)
    (h0 : (z 0).val = t.val * 10000 + (y 0).val) (h1 : (z 1).val = (y 1).val) :
    ((cfg0.win 0).blk t).view.read (Elt Ideal) A y = A z := by
  have e0 : win0_0.index t (0 : Fin 2) = t.val := by have := idx_facts t; omega
  have e1 : win0_0.index t (1 : Fin 2) = 0 := by have := idx_facts t; omega
  show A (((cfg0.win 0).blk t).view.emb y) = A z
  refine congrArg A (funext fun a => Fin.ext ?_)
  match a with
  | ⟨0, _⟩ => show win0_0.index t (0 : Fin 2) * 10000 + 1 * (y 0).val = (z 0).val; omega
  | ⟨1, _⟩ => show win0_0.index t (1 : Fin 2) * 64 + 1 * (y 1).val = (z 1).val; omega

/-- Window 1's block at point t, read off any array of its shape: rows 10000 t onward, the same columns. -/
theorem win1_rows (t : Fin cfg0.N) (A : S100000x64.Idx → Elt Ideal .f32) (y : S10000x64.Idx) (z : S100000x64.Idx)
    (h0 : (z 0).val = t.val * 10000 + (y 0).val) (h1 : (z 1).val = (y 1).val) :
    ((cfg0.win 1).blk t).view.read (Elt Ideal) A y = A z := by
  have e0 : win0_1.index t (0 : Fin 2) = t.val := by have := idx_facts t; omega
  have e1 : win0_1.index t (1 : Fin 2) = 0 := by have := idx_facts t; omega
  show A (((cfg0.win 1).blk t).view.emb y) = A z
  refine congrArg A (funext fun a => Fin.ext ?_)
  match a with
  | ⟨0, _⟩ => show win0_1.index t (0 : Fin 2) * 10000 + 1 * (y 0).val = (z 0).val; omega
  | ⟨1, _⟩ => show win0_1.index t (1 : Fin 2) * 64 + 1 * (y 1).val = (z 1).val; omega

/-- Window 2's block at point t, read off any array of its shape: rows 10000 t onward, the same columns. -/
theorem win2_rows (t : Fin cfg0.N) (A : S100000x64.Idx → Elt Ideal .f32) (y : S10000x64.Idx) (z : S100000x64.Idx)
    (h0 : (z 0).val = t.val * 10000 + (y 0).val) (h1 : (z 1).val = (y 1).val) :
    ((cfg0.win 2).blk t).view.read (Elt Ideal) A y = A z := by
  have e0 : win0_2.index t (0 : Fin 2) = t.val := by have := idx_facts t; omega
  have e1 : win0_2.index t (1 : Fin 2) = 0 := by have := idx_facts t; omega
  show A (((cfg0.win 2).blk t).view.emb y) = A z
  refine congrArg A (funext fun a => Fin.ext ?_)
  match a with
  | ⟨0, _⟩ => show win0_2.index t (0 : Fin 2) * 10000 + 1 * (y 0).val = (z 0).val; omega
  | ⟨1, _⟩ => show win0_2.index t (1 : Fin 2) * 64 + 1 * (y 1).val = (z 1).val; omega

/-- The weight window's block at every point, read off any array of its shape, is the array itself. -/
theorem win3_whole (t : Fin cfg0.N) (A : S192x64.Idx → Elt Ideal .f32) (y : S192x64.Idx) :
    ((cfg0.win 3).blk t).view.read (Elt Ideal) A y = A y := by
  have e0 : win0_3.index t (0 : Fin 2) = 0 := by have := idx_facts t; omega
  have e1 : win0_3.index t (1 : Fin 2) = 0 := by have := idx_facts t; omega
  show A (((cfg0.win 3).blk t).view.emb y) = A y
  refine congrArg A (funext fun a => Fin.ext ?_)
  match a with
  | ⟨0, _⟩ => show win0_3.index t (0 : Fin 2) * 192 + 1 * (y 0).val = (y 0).val; omega
  | ⟨1, _⟩ => show win0_3.index t (1 : Fin 2) * 64 + 1 * (y 1).val = (y 1).val; omega

/-- The bias window's block at every point, read off any array of its shape, is the array itself. -/
theorem win4_whole (t : Fin cfg0.N) (A : S64.Idx → Elt Ideal .f32) (y : S64.Idx) :
    ((cfg0.win 4).blk t).view.read (Elt Ideal) A y = A y := by
  have e0 : win0_4.index t (0 : Fin 1) = 0 := by have := idx_facts t; omega
  show A (((cfg0.win 4).blk t).view.emb y) = A y
  refine congrArg A (funext fun a => Fin.ext ?_)
  match a with
  | ⟨0, _⟩ => show win0_4.index t (0 : Fin 1) * 64 + 1 * (y 0).val = (y 0).val; omega

/-- The positive-edge mean's block at point t is rows 10000 t onward of the array the region finds. -/
theorem pos_block_rows (c : Dev nD) (t : Fin cfg0.N) (y : S10000x64.Idx) (z : S100000x64.Idx)
    (h0 : (z 0).val = t.val * 10000 + (y 0).val) (h1 : (z 1).val = (y 1).val) :
    (iblk m c 0 t : Vec Ideal S10000x64 .f32) y = (V m c main_v25 : S100000x64.Idx → Elt Ideal .f32) z := by
  unfold iblk
  exact win0_rows t (V m c main_v25) y z h0 h1

/-- The negative-edge mean's block at point t is rows 10000 t onward of the array the region finds. -/
theorem neg_block_rows (c : Dev nD) (t : Fin cfg0.N) (y : S10000x64.Idx) (z : S100000x64.Idx)
    (h0 : (z 0).val = t.val * 10000 + (y 0).val) (h1 : (z 1).val = (y 1).val) :
    (iblk m c 1 t : Vec Ideal S10000x64 .f32) y = (V m c main_v51 : S100000x64.Idx → Elt Ideal .f32) z := by
  unfold iblk
  exact win1_rows t (V m c main_v51) y z h0 h1

/-- The features' block at point t is rows 10000 t onward of the feature array. -/
theorem feat_block_rows (c : Dev nD) (t : Fin cfg0.N) (y : S10000x64.Idx) (z : S100000x64.Idx)
    (h0 : (z 0).val = t.val * 10000 + (y 0).val) (h1 : (z 1).val = (y 1).val) :
    (iblk m c 2 t : Vec Ideal S10000x64 .f32) y = (V m c main_arg0 : S100000x64.Idx → Elt Ideal .f32) z := by
  unfold iblk
  exact win2_rows t (V m c main_arg0) y z h0 h1

/-- The weight block at every point is the whole weight matrix. -/
theorem weight_block (c : Dev nD) (t : Fin cfg0.N) (y : S192x64.Idx) :
    (iblk m c 3 t : Vec Ideal S192x64 .f32) y = (V m c main_arg4 : S192x64.Idx → Elt Ideal .f32) y := by
  unfold iblk
  exact win3_whole t (V m c main_arg4) y

/-- The bias block at every point is the whole bias. -/
theorem bias_block (c : Dev nD) (t : Fin cfg0.N) (y : S64.Idx) :
    (iblk m c 4 t : Vec Ideal S64 .f32) y = (V m c main_arg5 : S64.Idx → Elt Ideal .f32) y := by
  unfold iblk
  exact win4_whole t (V m c main_arg5) y

/-- The output block's embedding at point t: row 10000 t + the row inside the block, the same column. -/
theorem out_emb (t : Fin cfg0.N) (j : S10000x64.Idx) :
    ((((cfg0.win 5).blk t).view.emb j : S100000x64.Idx) 0).val = t.val * 10000 + (j 0).val
    ∧ ((((cfg0.win 5).blk t).view.emb j : S100000x64.Idx) 1).val = (j 1).val := by
  have e0 : win0_5.index t (0 : Fin 2) = t.val := by have := idx_facts t; omega
  have e1 : win0_5.index t (1 : Fin 2) = 0 := by have := idx_facts t; omega
  constructor
  · show win0_5.index t (0 : Fin 2) * 10000 + 1 * (j 0).val = t.val * 10000 + (j 0).val; omega
  · show win0_5.index t (1 : Fin 2) * 64 + 1 * (j 1).val = (j 1).val; omega

set_option maxHeartbeats 800000 in
/-- WHAT POINT t WRITES BACK is block t of `whole`. -/
theorem flushed_eq (c : Dev nD) (t : Fin cfg0.N) :
    (dats m 0 c).flushed 5 t = ((cfg0.win 5).blk t).view.read (Elt Ideal) (whole m c) := by
  rw [flushed5]
  unfold out0_5
  rw [View.canon_unit_zero zero_offsets2]
  simp only [View.ld_unit_zero (S := S10000x64) zero_offsets2, View.ld_unit_zero (S := S192x64) zero_offsets2,
    View.ld_unit_zero (S := S64) zero_offsets1]
  refine writeback_eq t _ (whole m c) fun j => ?_
  exact block_entry (iblk m c 3 t) (V m c main_arg4) (iblk m c 4 t) (V m c main_arg5)
    (iblk m c 0 t) (iblk m c 1 t) (iblk m c 2 t) (V m c main_v25) (V m c main_v51) (V m c main_arg0) t.val
    (pos_block_rows m c t) (neg_block_rows m c t) (feat_block_rows m c t) (weight_block m c t) (bias_block m c t)
    j (((cfg0.win 5).blk t).view.emb j) (out_emb t j).1 (out_emb t j).2

/-- An index of the result array is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v52).slice (win0_5.rect t)).set ↔ _
  rw [View.set_slice_whole, Rect.mem_set_unit]
  exact Iff.rfl

/-- Every row lies in one of the ten row blocks: row r in block r / 10000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have ht : t.val = (i 0).val / 10000 := rfl
  obtain ⟨-, -, -, -, -, -, -, -, -, a50, a51⟩ := idx_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE RESULT ARRAY after the run is `whole`. -/
theorem final (c : Dev nD) : (dats m 0 c).arrAt 5 cfg0.N = whole m c :=
  (dats m 0 c).arrAt_eq_of_cover 5 (whole m c) (fun t _ => flushed_eq m c t) cover

/-- The kernel's run, read: the result at `whole`, the arguments unchanged. -/
theorem run : θ_run defs (onTc (τ := τ) (main (F := Ideal))) ⟨m, fun _ => 0, ρ⟩ fun r => ∀ c : Dev nD,
      r.2.mem ((c : Thread nD τ).loc main_v52) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Bridge

end
-- ==== Proof.RefValue.lean ====
/-
  The reference, read as the same function.  Its result is the quotient of the linear layer by the broadcast column of
  bounded row norms; the linear layer multiplies the 192-wide concatenation (positive mean, negative mean, features)
  by the weight matrix and adds the bias.  Read at entry (r, c): the 192-term product sum splits over the three bands of
  weight rows (`sum_bands`), in each band the concatenation is one of its three parts, and the host's sum of squares
  starts from zero.  The two neighbourhood means stay closed: they enter only as arrays.
-/
import proofs.«178019_j24352464568464_1_alg».proof.Proof.Gen.ReferenceIdeal.Read
import proofs.«178019_j24352464568464_1_alg».proof.Proof.Spec
import proofs.«178019_j24352464568464_1_alg».proof.Proof.RowLayout

noncomputable section

open scoped BigOperators

namespace Cert.ReferenceIdeal.Bridge

open Cert.ReferenceIdeal Cert.ReferenceIdeal.Gen Cert.ReferenceIdeal.Read Idealize.ShloMosaic Idealize.ShloMosaic.ValueIdx
open Cert.SignedSage

variable (x0 x1 : (⟨S100000x64, .f32⟩ : BufTy).Contents (Elt Ideal)) (x2 x3 : (⟨S2x1000000, .i32⟩ : BufTy).Contents (Elt Ideal))
  (x4 : (⟨S192x64, .f32⟩ : BufTy).Contents (Elt Ideal)) (x5 : (⟨S64, .f32⟩ : BufTy).Contents (Elt Ideal))

/-- Columns 0 to 63 of the concatenated features are the positive-edge mean. -/
theorem cat_band0 (r : Fin 100000) (k : Fin 64) :
    val_main_v52 (F := Ideal) x0 x1 x2 x3 (ix2 r (band0 k)) = val_main_v25 (F := Ideal) x0 x2 (ix2 r k) := by
  unfold val_main_v52
  exact concat3_band0 _ _ _ _ r k

/-- Columns 64 to 127 are the negative-edge mean. -/
theorem cat_band1 (r : Fin 100000) (k : Fin 64) :
    val_main_v52 (F := Ideal) x0 x1 x2 x3 (ix2 r (band1 k)) = val_main_v51 (F := Ideal) x1 x3 (ix2 r k) := by
  unfold val_main_v52
  exact concat3_band1 _ _ _ _ r k

/-- Columns 128 to 191 are the node's own features. -/
theorem cat_band2 (r : Fin 100000) (k : Fin 64) :
    val_main_v52 (F := Ideal) x0 x1 x2 x3 (ix2 r (band2 k)) = x0 (ix2 r k) := by
  unfold val_main_v52
  exact concat3_band2 _ _ _ _ r k

/-- The product with the weight matrix at (r, c): three 64-term sums, one per band. -/
theorem dot_apply (r : Fin 100000) (c : Fin 64) :
    val_main_v53 (F := Ideal) x0 x1 x2 x3 x4 (ix2 r c)
      = ((∑ k : Fin 64, val_main_v25 (F := Ideal) x0 x2 (ix2 r k) * x4 (ix2 (band0 k) c))
          + ∑ k : Fin 64, val_main_v51 (F := Ideal) x1 x3 (ix2 r k) * x4 (ix2 (band1 k) c))
        + ∑ k : Fin 64, x0 (ix2 r k) * x4 (ix2 (band2 k) c) := by
  rw [val_main_v53_apply]
  have hl : ∀ k : Fin 192, lidx_main_v53 (ix2 r c) k = ix2 r k := fun k =>
    funext fun a => Fin.ext (by match a with | ⟨0, _⟩ => rfl | ⟨1, _⟩ => rfl)
  have hr : ∀ k : Fin 192, ridx_main_v53 (ix2 r c) k = ix2 k c := fun k =>
    funext fun a => Fin.ext (by match a with | ⟨0, _⟩ => rfl | ⟨1, _⟩ => rfl)
  simp only [hl, hr]
  rw [sum_bands (fun k => val_main_v52 (F := Ideal) x0 x1 x2 x3 (ix2 r k) * x4 (ix2 k c))]
  simp only [cat_band0, cat_band1, cat_band2]

/-- The broadcast bias at (r, c) is the bias at c. -/
theorem bias_apply (r : Fin 100000) (c : Fin 64) : val_main_v55 (F := Ideal) x5 (ix2 r c) = x5 (ix1 c) := by
  rw [val_main_v55_apply, val_main_v54_apply]
  exact congrArg x5 (funext fun a => Fin.ext (by match a with | ⟨0, _⟩ => rfl))

/-- The linear layer at (r, c) is the specification's entry. -/
theorem lin_apply (r : Fin 100000) (c : Fin 64) :
    val_main_v56 (F := Ideal) x0 x1 x2 x3 x4 x5 (ix2 r c)
      = linEntry (fun k => val_main_v25 (F := Ideal) x0 x2 (ix2 r k)) (fun k => val_main_v51 (F := Ideal) x1 x3 (ix2 r k))
          (fun k => x0 (ix2 r k)) x4 x5 c := by
  rw [val_main_v56_apply, dot_apply, bias_apply]
  rfl

/-- The reference's result at (r, c) is the specification's normalised entry. -/
theorem out_apply (r : Fin 100000) (c : Fin 64) :
    val_main_v64 (F := Ideal) x0 x1 x2 x3 x4 x5 (ix2 r c)
      = normEntry (fun k => val_main_v25 (F := Ideal) x0 x2 (ix2 r k)) (fun k => val_main_v51 (F := Ideal) x1 x3 (ix2 r k))
          (fun k => x0 (ix2 r k)) x4 x5 c := by
  rw [val_main_v64_apply, val_main_v63_apply, val_main_v62_apply, val_main_v60_apply, val_main_v59_apply,
    val_main_v58_apply, val_main_v61_apply, val_main_cst_11_apply, val_main_cst_10_apply]
  have hk : ∀ k : Fin 64, idx_main_v58 (idx_main_v59 (idx_main_v63 (ix2 r c))) k = ix2 r k := fun k =>
    funext fun a => Fin.ext (by match a with | ⟨0, _⟩ => rfl | ⟨1, _⟩ => rfl)
  have hs : (∑ k : Fin 64, val_main_v57 (F := Ideal) x0 x1 x2 x3 x4 x5 (idx_main_v58 (idx_main_v59 (idx_main_v63 (ix2 r c))) k))
      = ∑ k : Fin 64,
          linEntry (fun k => val_main_v25 (F := Ideal) x0 x2 (ix2 r k)) (fun k => val_main_v51 (F := Ideal) x1 x3 (ix2 r k))
              (fun k => x0 (ix2 r k)) x4 x5 k
            * linEntry (fun k => val_main_v25 (F := Ideal) x0 x2 (ix2 r k)) (fun k => val_main_v51 (F := Ideal) x1 x3 (ix2 r k))
              (fun k => x0 (ix2 r k)) x4 x5 k :=
    Finset.sum_congr rfl fun k _ => by
      rw [hk k, val_main_v57_apply, lin_apply]
      rfl
  rw [hs, lin_apply]
  have hz : (FloatOps.ofBits (F := Ideal) .f32 0x00000000#32 : EReal) = 0 := Ideal.ofBits_zero_f32
  rw [hz, zero_add]
  unfold normEntry normFloor
  rw [Ideal.hostDivf_def, Ideal.hostUnary_sqrt_def, Ideal.maximumf_def, Ideal.ofBits_def]

/-- THE REFERENCE'S RESULT is `layer` of the two neighbourhood means, the features, the weight matrix and the bias. -/
theorem ref_eq :
    val_main_v64 (F := Ideal) x0 x1 x2 x3 x4 x5
      = layer (val_main_v25 (F := Ideal) x0 x2) (val_main_v51 (F := Ideal) x1 x3) x0 x4 x5 := by
  funext i
  obtain ⟨r, c, rfl⟩ : ∃ (r : Fin 100000) (c : Fin 64), i = ix2 r c := ⟨i 0, i 1, eq_ix2 i⟩
  rw [out_apply, layer_apply]

end Cert.ReferenceIdeal.Bridge

end
-- ==== Proof.Prefix.lean ====
/-
  The two neighbourhood means are one computation in both programs.  Each program first builds, from the features and an
  edge list, the mean of the features over every node's in-edges with a self-loop added: it appends the node numbers to
  both edge rows, wraps negative source indices, gathers the source rows, adds them into the target rows, counts the
  edges per target the same way, and divides by the count bounded below by one.  The kernel's program runs exactly the
  reference's operations, in the same order, before its region; so the array the region finds for each mean is the
  reference's value of that mean at the same arguments.  Nothing about gathers or scatters is used: the two terms are
  the same term.
-/
import proofs.«178019_j24352464568464_1_alg».proof.Proof.Gen.KernelIdeal.Frame
import proofs.«178019_j24352464568464_1_alg».proof.Proof.Gen.ReferenceIdeal.Read
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 8000000 in
/-- The positive-edge mean the region finds is the reference's, of the first feature array and the first edge list. -/
theorem pos_mean_eq (c : Dev nD) :
    (V m c main_v25 : S100000x64.Idx → Elt Ideal .f32)
      = Cert.ReferenceIdeal.Read.val_main_v25 (F := Ideal)
          (m ((c : Thread nD τ).loc main_arg0)) (m ((c : Thread nD τ).loc main_arg2)) := by
  dsimp only [V, hostOps0]
  after_results_simp
  rfl

set_option maxRecDepth 16384 in
set_option maxHeartbeats 8000000 in
/-- The negative-edge mean the region finds is the reference's, of the second feature array and the second edge list. -/
theorem neg_mean_eq (c : Dev nD) :
    (V m c main_v51 : S100000x64.Idx → Elt Ideal .f32)
      = Cert.ReferenceIdeal.Read.val_main_v51 (F := Ideal)
          (m ((c : Thread nD τ).loc main_arg1)) (m ((c : Thread nD τ).loc main_arg3)) := by
  dsimp only [V, hostOps0]
  after_results_simp
  rfl

end Cert.KernelIdeal.Bridge

end
-- ==== Proof.lean ====
/-
  A signed graph convolution layer: for every node, the mean of the first feature array over its positive in-edges and
  the mean of the second over its negative in-edges (each with a self-loop added) are laid beside the node's own
  features, the 192-wide row is multiplied by a 192 x 64 weight matrix, a bias is added, and the row is divided by the
  larger of its Euclidean norm and a small constant.

  The two programs compute the two means by the very same host operations, so those arrays agree as terms.  They differ
  only in the linear layer: the reference multiplies the concatenated row by the whole weight matrix, while the kernel,
  working on blocks of 10000 rows, multiplies each of the three 64-wide parts by its own band of 64 weight rows and adds
  the three products.  A sum over the 192 weight rows is the sum over its three bands, by commutativity and associativity
  of addition alone, so the two agree on all extended reals and the finiteness of the inputs is never used.  Bias,
  sum of squares, square root, lower bound and division are the same operations on both sides, and every change of float
  format is the identity on exact values.

  The kernel's frames come from its generated frame run; the reference has no kernel, and its frame is its generated run
  with the result dropped.  The idealisation rewrote nothing, so there is nothing to preserve.
-/
import proofs.«178019_j24352464568464_1_alg».proof.Defs
import proofs.«178019_j24352464568464_1_alg».proof.Proof.Gen.Kernel
import proofs.«178019_j24352464568464_1_alg».proof.Proof.Gen.Kernel.Skeleton
import proofs.«178019_j24352464568464_1_alg».proof.Proof.Gen.Kernel.Launch
import proofs.«178019_j24352464568464_1_alg».proof.Proof.Gen.Kernel.Points
import proofs.«178019_j24352464568464_1_alg».proof.Proof.Gen.Kernel.Frame
import proofs.«178019_j24352464568464_1_alg».proof.Proof.Gen.KernelIdeal
import proofs.«178019_j24352464568464_1_alg».proof.Proof.Gen.KernelIdeal.Skeleton
import proofs.«178019_j24352464568464_1_alg».proof.Proof.Gen.KernelIdeal.Launch
import proofs.«178019_j24352464568464_1_alg».proof.Proof.Gen.KernelIdeal.Points
import proofs.«178019_j24352464568464_1_alg».proof.Proof.Gen.KernelIdeal.Frame
import proofs.«178019_j24352464568464_1_alg».proof.Proof.Gen.ReferenceIdeal
import proofs.«178019_j24352464568464_1_alg».proof.Proof.Gen.Pre_finite_inputs
import proofs.«178019_j24352464568464_1_alg».proof.Proof.Gen.KernelIdeal.Value
import proofs.«178019_j24352464568464_1_alg».proof.Proof.Gen.ReferenceIdeal.Run
import proofs.«178019_j24352464568464_1_alg».proof.Proof.Gen.ReferenceIdeal.Read
import proofs.«178019_j24352464568464_1_alg».proof.Proof.KernelValue
import proofs.«178019_j24352464568464_1_alg».proof.Proof.RefValue
import proofs.«178019_j24352464568464_1_alg».proof.Proof.Prefix
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read over exact values. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its exact reading. -/
theorem preserves : Cert.preserves_Kernel_KernelIdeal := trivial

/-- Over exact values both programs end with the normalised layer of the same two neighbourhood means, the same features,
    weights and bias: the kernel block by block with the product split over the three bands of weight rows, the reference
    with one product over the concatenated row. -/
theorem algebraic : Cert.algebraic_KernelIdeal_ReferenceIdeal := by
  intro m ρ m' ρ' _ hagree
  refine ⟨fun c => Cert.KernelIdeal.Bridge.whole m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v64_eq, Cert.ReferenceIdeal.Bridge.ref_eq, e0, e1, e2, e3, e4, e5]
  show _ = Cert.SignedSage.layer _ _ _ _ _
  rw [Cert.KernelIdeal.Bridge.pos_mean_eq, Cert.KernelIdeal.Bridge.neg_mean_eq, Cert.KernelIdeal.Gen.V_main_arg0,
    Cert.KernelIdeal.Gen.V_main_arg4, Cert.KernelIdeal.Gen.V_main_arg5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
